-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S5000x128 : Shape := ⟨2, ![5000, 128]⟩
abbrev S675000x128 : Shape := ⟨2, ![675000, 128]⟩
abbrev S1x128 : Shape := ⟨2, ![1, 128]⟩
abbrev S50000x64 : Shape := ⟨2, ![50000, 64]⟩
abbrev S5000x64 : Shape := ⟨2, ![5000, 64]⟩
abbrev S675000x64 : Shape := ⟨2, ![675000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S675000, .i32⟩
  | .hbm, ⟨29, _⟩ => ⟨S675000, .i1⟩
  | .hbm, ⟨30, _⟩ => ⟨S_, .i32⟩
  | .hbm, ⟨31, _⟩ => ⟨S675000, .i32⟩
  | .hbm, ⟨32, _⟩ => ⟨S675000, .i32⟩
  | .hbm, ⟨33, _⟩ => ⟨S675000, .i32⟩
  | .hbm, ⟨34, _⟩ => ⟨S675000x1, .i32⟩
  | .hbm, ⟨35, _⟩ => ⟨S675000, .f32⟩
  | .hbm, ⟨36, _⟩ => ⟨S_, .i32⟩
  | .hbm, ⟨37, _⟩ => ⟨S675000, .i32⟩
  | .hbm, ⟨38, _⟩ => ⟨S675000, .i1⟩
  | .hbm, ⟨39, _⟩ => ⟨S_, .i32⟩
  | .hbm, ⟨40, _⟩ => ⟨S675000, .i32⟩
  | .hbm, ⟨41, _⟩ => ⟨S675000, .i32⟩
  | .hbm, ⟨42, _⟩ => ⟨S675000, .i32⟩
  | .hbm, ⟨43, _⟩ => ⟨S675000x1, .i32⟩
  | .hbm, ⟨44, _⟩ => ⟨S675000, .f32⟩
  | .hbm, ⟨45, _⟩ => ⟨S675000, .f32⟩
  | .hbm, ⟨46, _⟩ => ⟨S50000x128, .f32⟩
  | .hbm, ⟨47, _⟩ => ⟨S_, .i32⟩
  | .hbm, ⟨48, _⟩ => ⟨S675000, .i32⟩
  | .hbm, ⟨49, _⟩ => ⟨S675000, .i1⟩
  | .hbm, ⟨50, _⟩ => ⟨S_, .i32⟩
  | .hbm, ⟨51, _⟩ => ⟨S675000, .i32⟩
  | .hbm, ⟨52, _⟩ => ⟨S675000, .i32⟩
  | .hbm, ⟨53, _⟩ => ⟨S675000, .i32⟩
  | .hbm, ⟨54, _⟩ => ⟨S675000x1, .i32⟩
  | .hbm, ⟨55, _⟩ => ⟨S675000x128, .f32⟩
  | .hbm, ⟨56, _⟩ => ⟨S675000x1, .f32⟩
  | .hbm, ⟨57, _⟩ => ⟨S675000x128, .f32⟩
  | .hbm, ⟨58, _⟩ => ⟨S675000x128, .f32⟩
  | .hbm, ⟨59, _⟩ => ⟨S_, .f32⟩
  | .hbm, ⟨60, _⟩ => ⟨S50000x128, .f32⟩
  | .hbm, ⟨61, _⟩ => ⟨S675000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S675000, .i32⟩
  | .hbm, ⟨72, _⟩ => ⟨S675000, .i1⟩
  | .hbm, ⟨73, _⟩ => ⟨S_, .i32⟩
  | .hbm, ⟨74, _⟩ => ⟨S675000, .i32⟩
  | .hbm, ⟨75, _⟩ => ⟨S675000, .i32⟩
  | .hbm, ⟨76, _⟩ => ⟨S675000, .i32⟩
  | .hbm, ⟨77, _⟩ => ⟨S675000x1, .i32⟩
  | .hbm, ⟨78, _⟩ => ⟨S675000x64, .f32⟩
  | .hbm, ⟨79, _⟩ => ⟨S675000x1, .f32⟩
  | .hbm, ⟨80, _⟩ => ⟨S675000x64, .f32⟩
  | .hbm, ⟨81, _⟩ => ⟨S675000x64, .f32⟩
  | .hbm, ⟨82, _⟩ => ⟨S_, .f32⟩
  | .hbm, ⟨83, _⟩ => ⟨S50000x64, .f32⟩
  | .hbm, ⟨84, _⟩ => ⟨S675000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S675000x1_S675000x64_0_1 : S675000x1.BroadcastsInDim S675000x64 (![0, 1] : Fin 2 → Fin S675000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S5000x128_S128x128_S5000x128_1_0_0_1_n_n_wf : DotDims.WF S5000x128 S128x128 S5000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S5000x128_S128x64_S5000x64_1_0_0_1_n_n_wf : DotDims.WF S5000x128 S128x64 S5000x64 [1] [0] [0] [1] [] []
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x64 : Shape := ⟨2, ![50000, 64]⟩
abbrev S675000x64 : Shape := ⟨2, ![675000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S675000, .i32⟩
  | .hbm, ⟨29, _⟩ => ⟨S675000, .i1⟩
  | .hbm, ⟨30, _⟩ => ⟨S_, .i32⟩
  | .hbm, ⟨31, _⟩ => ⟨S675000, .i32⟩
  | .hbm, ⟨32, _⟩ => ⟨S675000, .i32⟩
  | .hbm, ⟨33, _⟩ => ⟨S675000, .i32⟩
  | .hbm, ⟨34, _⟩ => ⟨S675000x1, .i32⟩
  | .hbm, ⟨35, _⟩ => ⟨S675000, .f32⟩
  | .hbm, ⟨36, _⟩ => ⟨S_, .i32⟩
  | .hbm, ⟨37, _⟩ => ⟨S675000, .i32⟩
  | .hbm, ⟨38, _⟩ => ⟨S675000, .i1⟩
  | .hbm, ⟨39, _⟩ => ⟨S_, .i32⟩
  | .hbm, ⟨40, _⟩ => ⟨S675000, .i32⟩
  | .hbm, ⟨41, _⟩ => ⟨S675000, .i32⟩
  | .hbm, ⟨42, _⟩ => ⟨S675000, .i32⟩
  | .hbm, ⟨43, _⟩ => ⟨S675000x1, .i32⟩
  | .hbm, ⟨44, _⟩ => ⟨S675000, .f32⟩
  | .hbm, ⟨45, _⟩ => ⟨S675000, .f32⟩
  | .hbm, ⟨46, _⟩ => ⟨S50000x128, .f32⟩
  | .hbm, ⟨47, _⟩ => ⟨S_, .i32⟩
  | .hbm, ⟨48, _⟩ => ⟨S675000, .i32⟩
  | .hbm, ⟨49, _⟩ => ⟨S675000, .i1⟩
  | .hbm, ⟨50, _⟩ => ⟨S_, .i32⟩
  | .hbm, ⟨51, _⟩ => ⟨S675000, .i32⟩
  | .hbm, ⟨52, _⟩ => ⟨S675000, .i32⟩
  | .hbm, ⟨53, _⟩ => ⟨S675000, .i32⟩
  | .hbm, ⟨54, _⟩ => ⟨S675000x1, .i32⟩
  | .hbm, ⟨55, _⟩ => ⟨S675000x128, .f32⟩
  | .hbm, ⟨56, _⟩ => ⟨S675000x1, .f32⟩
  | .hbm, ⟨57, _⟩ => ⟨S675000x128, .f32⟩
  | .hbm, ⟨58, _⟩ => ⟨S675000x128, .f32⟩
  | .hbm, ⟨59, _⟩ => ⟨S_, .f32⟩
  | .hbm, ⟨60, _⟩ => ⟨S50000x128, .f32⟩
  | .hbm, ⟨61, _⟩ => ⟨S675000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S675000, .i32⟩
  | .hbm, ⟨71, _⟩ => ⟨S675000, .i32⟩
  | .hbm, ⟨72, _⟩ => ⟨S_, .f32⟩
  | .hbm, ⟨73, _⟩ => ⟨S675000, .f32⟩
  | .hbm, ⟨74, _⟩ => ⟨S_, .f32⟩
  | .hbm, ⟨75, _⟩ => ⟨S50000, .f32⟩
  | .hbm, ⟨76, _⟩ => ⟨S675000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S675000, .i32⟩
  | .hbm, ⟨88, _⟩ => ⟨S675000, .i1⟩
  | .hbm, ⟨89, _⟩ => ⟨S_, .i32⟩
  | .hbm, ⟨90, _⟩ => ⟨S675000, .i32⟩
  | .hbm, ⟨91, _⟩ => ⟨S675000, .i32⟩
  | .hbm, ⟨92, _⟩ => ⟨S675000, .i32⟩
  | .hbm, ⟨93, _⟩ => ⟨S675000x1, .i32⟩
  | .hbm, ⟨94, _⟩ => ⟨S675000, .f32⟩
  | .hbm, ⟨95, _⟩ => ⟨S_, .i32⟩
  | .hbm, ⟨96, _⟩ => ⟨S675000, .i32⟩
  | .hbm, ⟨97, _⟩ => ⟨S675000, .i1⟩
  | .hbm, ⟨98, _⟩ => ⟨S_, .i32⟩
  | .hbm, ⟨99, _⟩ => ⟨S675000, .i32⟩
  | .hbm, ⟨100, _⟩ => ⟨S675000, .i32⟩
  | .hbm, ⟨101, _⟩ => ⟨S675000, .i32⟩
  | .hbm, ⟨102, _⟩ => ⟨S675000x1, .i32⟩
  | .hbm, ⟨103, _⟩ => ⟨S675000, .f32⟩
  | .hbm, ⟨104, _⟩ => ⟨S675000, .f32⟩
  | .hbm, ⟨105, _⟩ => ⟨S50000x64, .f32⟩
  | .hbm, ⟨106, _⟩ => ⟨S_, .i32⟩
  | .hbm, ⟨107, _⟩ => ⟨S675000, .i32⟩
  | .hbm, ⟨108, _⟩ => ⟨S675000, .i1⟩
  | .hbm, ⟨109, _⟩ => ⟨S_, .i32⟩
  | .hbm, ⟨110, _⟩ => ⟨S675000, .i32⟩
  | .hbm, ⟨111, _⟩ => ⟨S675000, .i32⟩
  | .hbm, ⟨112, _⟩ => ⟨S675000, .i32⟩
  | .hbm, ⟨113, _⟩ => ⟨S675000x1, .i32⟩
  | .hbm, ⟨114, _⟩ => ⟨S675000x64, .f32⟩
  | .hbm, ⟨115, _⟩ => ⟨S675000x1, .f32⟩
  | .hbm, ⟨116, _⟩ => ⟨S675000x64, .f32⟩
  | .hbm, ⟨117, _⟩ => ⟨S675000x64, .f32⟩
  | .hbm, ⟨118, _⟩ => ⟨S_, .f32⟩
  | .hbm, ⟨119, _⟩ => ⟨S50000x64, .f32⟩
  | .hbm, ⟨120, _⟩ => ⟨S675000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S675000x1_S675000x64_0_1 : S675000x1.BroadcastsInDim S675000x64 (![0, 1] : Fin 2 → Fin S675000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S50000x128_S128x64_S50000x64_1_0_0_1_n_n_wf : DotDims.WF S50000x128 S128x64 S50000x64 [1] [0] [0] [1] [] []
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf

class Facts : Prop extends Facts₀ where

variable [Facts]
-- ==== Proof.HostStages.lean ====
/-
  The host side of the two-layer graph convolution, as functions. Both programs compute, from the edge list alone:
  the source and target of every edge with one self loop per node appended (`sources`, `targets`), each node's degree
  as a scatter-add of ones over the targets, its inverse square root where the degree is positive and zero elsewhere
  (`invSqrtDeg`), and per edge the product of that quantity at its two ends (`edgeNorm`). A layer then takes the dense
  product `h` of the features with the weights, gathers `h` at every edge's source, scales by the edge's norm,
  scatter-adds into the edge's target and adds the bias (`aggregate128`, `aggregate64`); the first layer ends in a
  maximum with zero. Negative indices wrap by the node count before a gather (`wrapped`): an index below zero counts from the end.
-/
import proofs.«106965_j40750649704955_1_alg».proof.Proof.Gen.KernelIdeal

noncomputable section

namespace Cert.KernelIdeal.HostStages

open Cert.KernelIdeal Cert.KernelIdeal.Facts₀ Idealize.ShloMosaic Idealize.ShloMosaic.TcCoe Idealize.SL.Sem

variable {F : FTy → Type} [FloatOps F]

/-- Every edge's source, then every node once (the self loops). -/
def sources (e : (⟨S2x625000, .i32⟩ : BufTy).Contents (Elt F)) : (⟨S675000, .i32⟩ : BufTy).Contents (Elt F) :=
  concatenate S675000 0 [⟨S625000, (shapeCast _ (extractStridedSlice S1x625000 ![0, 0] e slices_S2x625000_S1x625000_0_0) shapeCasts_S1x625000_S625000)⟩, ⟨S50000, (iotaInDim S50000 32 0)⟩] concatenates_S625000_S50000_S675000_d0

/-- Every edge's target, then every node once (the self loops). -/
def targets (e : (⟨S2x625000, .i32⟩ : BufTy).Contents (Elt F)) : (⟨S675000, .i32⟩ : BufTy).Contents (Elt F) :=
  concatenate S675000 0 [⟨S625000, (shapeCast _ (extractStridedSlice S1x625000 ![1, 0] e slices_S2x625000_S1x625000_1_0) shapeCasts_S1x625000_S625000)⟩, ⟨S50000, (iotaInDim S50000 32 0)⟩] concatenates_S625000_S50000_S675000_d0

/-- An index below zero counts from the end: the node count is added to it. -/
def wrapped (v : (⟨S675000, .i32⟩ : BufTy).Contents (Elt F)) : (⟨S675000, .i32⟩ : BufTy).Contents (Elt F) :=
  select (cmpi .slt v (broadcastInDim S675000 ![] bcast_S_S675000 (constantI S_ 32 0#32))) (addi v (broadcastInDim S675000 ![] bcast_S_S675000 (constantI S_ 32 50000#32))) v

/-- Each node's degree: one for every edge (self loop included) that ends in it. -/
def degree (e : (⟨S2x625000, .i32⟩ : BufTy).Contents (Elt F)) : (⟨S50000, .f32⟩ : BufTy).Contents (Elt F) :=
  Host.scatterAdd scatter_S50000_S675000x1_S675000_n_0_0_1 (broadcastInDim S50000 ![] bcast_S_S50000 (constant S_ .f32 0x00000000#32)) (broadcastInDim S675000x1 ![0] bcast_S675000_S675000x1_0 (targets (F := F) e)) (broadcastInDim S675000 ![] bcast_S_S675000 (constant S_ .f32 0x3F800000#32))

/-- The degree's inverse square root where the degree is positive, zero elsewhere. -/
def invSqrtDeg (e : (⟨S2x625000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (degree e)) (broadcastInDim S50000 ![] bcast_S_S50000 (id (constant S_ .f32 0x00000000#32)))

/-- Per edge: the inverse square root of the degree at its source times that at its target. -/
def edgeNorm (e : (⟨S2x625000, .i32⟩ : BufTy).Contents (Elt F)) : (⟨S675000, .f32⟩ : BufTy).Contents (Elt F) :=
  mulf (Host.gather gather_S50000_S675000x1_S675000_n_0_n_n_0_1_1 (invSqrtDeg e) (broadcastInDim S675000x1 ![0] bcast_S675000_S675000x1_0 (wrapped (F := F) (sources (F := F) e)))) (Host.gather gather_S50000_S675000x1_S675000_n_0_n_n_0_1_1 (invSqrtDeg e) (broadcastInDim S675000x1 ![0] bcast_S675000_S675000x1_0 (wrapped (F := F) (targets (F := F) e))))

/-- One layer's aggregation at width 128: gather the transformed features at every edge's source, scale by the edge's
    norm, scatter-add into the edge's target, add the bias. -/
def aggregate128 (h : (⟨S50000x128, .f32⟩ : BufTy).Contents (Elt F)) (e : (⟨S2x625000, .i32⟩ : BufTy).Contents (Elt F))
    (b : (⟨S128, .f32⟩ : BufTy).Contents (Elt F)) : (⟨S50000x128, .f32⟩ : BufTy).Contents (Elt F) :=
  addf (Host.scatterAdd scatter_S50000x128_S675000x1_S675000x128_1_0_0_1 (broadcastInDim S50000x128 ![] bcast_S_S50000x128 (constant S_ .f32 0x00000000#32)) (broadcastInDim S675000x1 ![0] bcast_S675000_S675000x1_0 (targets (F := F) e)) (mulf (Host.gather gather_S50000x128_S675000x1_S675000x128_1_0_n_n_0_1_1128 h (broadcastInDim S675000x1 ![0] bcast_S675000_S675000x1_0 (wrapped (F := F) (sources (F := F) e)))) (broadcastInDim S675000x128 ![0, 1] bcast_S675000x1_S675000x128_0_1 (broadcastInDim S675000x1 ![0] bcast_S675000_S675000x1_0 (edgeNorm e))))) (broadcastInDim S50000x128 ![0, 1] bcast_S1x128_S50000x128_0_1 (broadcastInDim S1x128 ![1] bcast_S128_S1x128_1 b))

/-- The first layer's activation: the maximum with zero. -/
def relu128 (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The same aggregation at width 64 (the output layer). -/
def aggregate64 (h : (⟨S50000x64, .f32⟩ : BufTy).Contents (Elt F)) (e : (⟨S2x625000, .i32⟩ : BufTy).Contents (Elt F))
    (b : (⟨S64, .f32⟩ : BufTy).Contents (Elt F)) : (⟨S50000x64, .f32⟩ : BufTy).Contents (Elt F) :=
  addf (Host.scatterAdd scatter_S50000x64_S675000x1_S675000x64_1_0_0_1 (broadcastInDim S50000x64 ![] bcast_S_S50000x64 (constant S_ .f32 0x00000000#32)) (broadcastInDim S675000x1 ![0] bcast_S675000_S675000x1_0 (targets (F := F) e)) (mulf (Host.gather gather_S50000x64_S675000x1_S675000x64_1_0_n_n_0_1_164 h (broadcastInDim S675000x1 ![0] bcast_S675000_S675000x1_0 (wrapped (F := F) (sources (F := F) e)))) (broadcastInDim S675000x64 ![0, 1] bcast_S675000x1_S675000x64_0_1 (broadcastInDim S675000x1 ![0] bcast_S675000_S675000x1_0 (edgeNorm e))))) (broadcastInDim S50000x64 ![0, 1] bcast_S1x64_S50000x64_0_1 (broadcastInDim S1x64 ![1] bcast_S64_S1x64_1 b))

end Cert.KernelIdeal.HostStages

end
-- ==== Proof.Boundaries.lean ====
/-
  The kernel program's buffers at the boundaries between its host stretches and its two pallas_calls, read as the
  host stages. Before the first call the host has computed the edge endpoints with self loops and the per-edge norm from
  the edge list; no later operation writes those buffers, so every later boundary still holds them. Between the calls
  the host gathers, scales, scatter-adds, adds the first bias and takes the maximum with zero over the first call's
  result array; after the second call it does the same, without the maximum, over the second call's result array.
-/
import proofs.«106965_j40750649704955_1_alg».proof.Proof.Gen.KernelIdeal.Frame
import proofs.«106965_j40750649704955_1_alg».proof.Proof.HostStages

set_option maxRecDepth 16384

noncomputable section

namespace Cert.KernelIdeal.Boundaries

open Cert.KernelIdeal Cert.KernelIdeal.Gen Cert.KernelIdeal.HostStages
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## The two short stretches, from any contents -/

/-- The outlined `where`: the selection of the second operand where the mask holds, of the broadcast scalar elsewhere. -/
theorem where_stage (V : Valuation τ sig (Elt F)) :
    after hostOps0_1 V (Proc.devRef .tc main_v14)
      = select (V (Proc.devRef .tc main_v12)) (V (Proc.devRef .tc main_v13))
          (broadcastInDim S50000 ![] bcast_S_S50000 (id (V (Proc.devRef .tc main_cst_2)))) := by
  simp only [hostOps0_1]
  after_results
  simp only [TRef.ofBuf, TRef.toBuf, cast_eq]

set_option maxHeartbeats 1000000 in
/-- The stretch that turns the per-node quantity into the per-edge norm: gathered at the wrapped sources and at the
    wrapped targets, multiplied. -/
theorem norm_stage (V : Valuation τ sig (Elt F)) :
    after hostOps0_2 V (Proc.devRef .tc main_v29)
      = mulf (Host.gather gather_S50000_S675000x1_S675000_n_0_n_n_0_1_1 (V (Proc.devRef .tc main_v14)) (broadcastInDim S675000x1 ![0] bcast_S675000_S675000x1_0 (wrapped (F := F) (V (Proc.devRef .tc main_v5)))))
          (Host.gather gather_S50000_S675000x1_S675000_n_0_n_n_0_1_1 (V (Proc.devRef .tc main_v14)) (broadcastInDim S675000x1 ![0] bcast_S675000_S675000x1_0 (wrapped (F := F) (V (Proc.devRef .tc main_v6))))) := by
  simp only [hostOps0_2]
  after_results_simp
  rfl

/-! ## After the first stretch (the boundary `W1`) -/

theorem W1_sources (c : Dev nD) :
    W1 m ρ c (Proc.devRef .tc main_v5) = sources (F := F) (m ((c : Thread nD τ).loc main_arg1)) := by
  dsimp only [W1]
  simp only [hostOps0]
  after_results
  rfl

theorem W1_targets (c : Dev nD) :
    W1 m ρ c (Proc.devRef .tc main_v6) = targets (F := F) (m ((c : Thread nD τ).loc main_arg1)) := by
  dsimp only [W1]
  simp only [hostOps0]
  after_results
  rfl

/-- Where the degree is positive. -/
theorem W1_positive (c : Dev nD) :
    W1 m ρ c (Proc.devRef .tc main_v12)
      = cmpf (F := F) .ogt (degree (F := F) (m ((c : Thread nD τ).loc main_arg1))) (broadcastInDim S50000 ![] bcast_S_S50000 (constant S_ .f32 0x00000000#32)) := by
  dsimp only [W1]
  simp only [hostOps0]
  after_results
  rfl

/-- The degree's inverse square root, everywhere. -/
theorem W1_rsqrt (c : Dev nD) :
    W1 m ρ c (Proc.devRef .tc main_v13) = Host.rsqrt (degree (F := F) (m ((c : Thread nD τ).loc main_arg1))) := by
  dsimp only [W1]
  simp only [hostOps0]
  after_results
  rfl

theorem W1_zero (c : Dev nD) :
    W1 m ρ c (Proc.devRef .tc main_cst_2) = constant (F := F) S_ .f32 0x00000000#32 := by
  dsimp only [W1]
  simp only [hostOps0]
  after_results

/-! ## After the `where` (the boundary `W2`) -/

theorem W2_sources (c : Dev nD) :
    W2 m ρ c (Proc.devRef .tc main_v5) = sources (F := F) (m ((c : Thread nD τ).loc main_arg1)) := by
  refine Eq.trans ?_ (W1_sources m ρ c)
  show after hostOps0_1 (W1 m ρ c) (Proc.devRef .tc main_v5) = W1 m ρ c (Proc.devRef .tc main_v5)
  generalize W1 m ρ c = V
  simp only [hostOps0_1]
  after_results_simp

theorem W2_targets (c : Dev nD) :
    W2 m ρ c (Proc.devRef .tc main_v6) = targets (F := F) (m ((c : Thread nD τ).loc main_arg1)) := by
  refine Eq.trans ?_ (W1_targets m ρ c)
  show after hostOps0_1 (W1 m ρ c) (Proc.devRef .tc main_v6) = W1 m ρ c (Proc.devRef .tc main_v6)
  generalize W1 m ρ c = V
  simp only [hostOps0_1]
  after_results_simp

theorem W2_invSqrtDeg (c : Dev nD) :
    W2 m ρ c (Proc.devRef .tc main_v14) = invSqrtDeg (F := F) (m ((c : Thread nD τ).loc main_arg1)) := by
  show after hostOps0_1 (W1 m ρ c) (Proc.devRef .tc main_v14) = _
  rw [where_stage, W1_positive, W1_rsqrt, W1_zero]
  rfl

/-! ## Before the first call (the boundary `W3`) -/

theorem W3_sources (c : Dev nD) :
    W3 m ρ c (Proc.devRef .tc main_v5) = sources (F := F) (m ((c : Thread nD τ).loc main_arg1)) := by
  refine Eq.trans ?_ (W2_sources m ρ c)
  show after hostOps0_2 (W2 m ρ c) (Proc.devRef .tc main_v5) = W2 m ρ c (Proc.devRef .tc main_v5)
  generalize W2 m ρ c = V
  simp only [hostOps0_2]
  after_results_simp

theorem W3_targets (c : Dev nD) :
    W3 m ρ c (Proc.devRef .tc main_v6) = targets (F := F) (m ((c : Thread nD τ).loc main_arg1)) := by
  refine Eq.trans ?_ (W2_targets m ρ c)
  show after hostOps0_2 (W2 m ρ c) (Proc.devRef .tc main_v6) = W2 m ρ c (Proc.devRef .tc main_v6)
  generalize W2 m ρ c = V
  simp only [hostOps0_2]
  after_results_simp

/-- The per-edge norm. -/
theorem W3_norm (c : Dev nD) :
    W3 m ρ c (Proc.devRef .tc main_v29) = edgeNorm (F := F) (m ((c : Thread nD τ).loc main_arg1)) := by
  show after hostOps0_2 (W2 m ρ c) (Proc.devRef .tc main_v29) = _
  rw [norm_stage, W2_invSqrtDeg, W2_sources, W2_targets]
  rfl

/-! ## The arguments before the first call: no host operation writes one -/

set_option maxHeartbeats 1000000 in
theorem W3_features (c : Dev nD) :
    W3 m ρ c (Proc.devRef .tc main_arg0) = m ((c : Thread nD τ).loc main_arg0) := by
  dsimp only [W3, W2, W1]
  simp only [hostOps0, hostOps0_1, hostOps0_2]
  after_results

set_option maxHeartbeats 1000000 in
theorem W3_weights1 (c : Dev nD) :
    W3 m ρ c (Proc.devRef .tc main_arg2) = m ((c : Thread nD τ).loc main_arg2) := by
  dsimp only [W3, W2, W1]
  simp only [hostOps0, hostOps0_1, hostOps0_2]
  after_results

set_option maxHeartbeats 1000000 in
theorem W3_bias1 (c : Dev nD) :
    W3 m ρ c (Proc.devRef .tc main_arg3) = m ((c : Thread nD τ).loc main_arg3) := by
  dsimp only [W3, W2, W1]
  simp only [hostOps0, hostOps0_1, hostOps0_2]
  after_results

set_option maxHeartbeats 1000000 in
theorem W3_weights2 (c : Dev nD) :
    W3 m ρ c (Proc.devRef .tc main_arg4) = m ((c : Thread nD τ).loc main_arg4) := by
  dsimp only [W3, W2, W1]
  simp only [hostOps0, hostOps0_1, hostOps0_2]
  after_results

set_option maxHeartbeats 1000000 in
theorem W3_bias2 (c : Dev nD) :
    W3 m ρ c (Proc.devRef .tc main_arg5) = m ((c : Thread nD τ).loc main_arg5) := by
  dsimp only [W3, W2, W1]
  simp only [hostOps0, hostOps0_1, hostOps0_2]
  after_results

/-! ## After the first call (the boundary `W4`): the call writes its result array only -/

theorem W4_sources (c : Dev nD) :
    W4 m ρ c (Proc.devRef .tc main_v5) = sources (F := F) (m ((c : Thread nD τ).loc main_arg1)) :=
  (W4_of_ne m ρ c main_v5 (by decide)).trans (W3_sources m ρ c)
theorem W4_targets (c : Dev nD) :
    W4 m ρ c (Proc.devRef .tc main_v6) = targets (F := F) (m ((c : Thread nD τ).loc main_arg1)) :=
  (W4_of_ne m ρ c main_v6 (by decide)).trans (W3_targets m ρ c)
theorem W4_norm (c : Dev nD) :
    W4 m ρ c (Proc.devRef .tc main_v29) = edgeNorm (F := F) (m ((c : Thread nD τ).loc main_arg1)) :=
  (W4_of_ne m ρ c main_v29 (by decide)).trans (W3_norm m ρ c)
theorem W4_bias1 (c : Dev nD) :
    W4 m ρ c (Proc.devRef .tc main_arg3) = m ((c : Thread nD τ).loc main_arg3) :=
  (W4_of_ne m ρ c main_arg3 (by decide)).trans (W3_bias1 m ρ c)
theorem W4_weights2 (c : Dev nD) :
    W4 m ρ c (Proc.devRef .tc main_arg4) = m ((c : Thread nD τ).loc main_arg4) :=
  (W4_of_ne m ρ c main_arg4 (by decide)).trans (W3_weights2 m ρ c)
theorem W4_bias2 (c : Dev nD) :
    W4 m ρ c (Proc.devRef .tc main_arg5) = m ((c : Thread nD τ).loc main_arg5) :=
  (W4_of_ne m ρ c main_arg5 (by decide)).trans (W3_bias2 m ρ c)

/-! ## The stretch between the calls, and the one after the second, from any contents -/

set_option maxHeartbeats 1000000 in
/-- The first layer's aggregation over whatever the first call left in its result array. -/
theorem layer1_stage (V : Valuation τ sig (Elt F)) :
    after hostOps1 V (Proc.devRef .tc main_v46)
      = addf (Host.scatterAdd scatter_S50000x128_S675000x1_S675000x128_1_0_0_1 (broadcastInDim S50000x128 ![] bcast_S_S50000x128 (constant S_ .f32 0x00000000#32)) (broadcastInDim S675000x1 ![0] bcast_S675000_S675000x1_0 (V (Proc.devRef .tc main_v6))) (mulf (Host.gather gather_S50000x128_S675000x1_S675000x128_1_0_n_n_0_1_1128 (V (Proc.devRef .tc main_v30)) (broadcastInDim S675000x1 ![0] bcast_S675000_S675000x1_0 (wrapped (F := F) (V (Proc.devRef .tc main_v5))))) (broadcastInDim S675000x128 ![0, 1] bcast_S675000x1_S675000x128_0_1 (broadcastInDim S675000x1 ![0] bcast_S675000_S675000x1_0 (V (Proc.devRef .tc main_v29)))))) (broadcastInDim S50000x128 ![0, 1] bcast_S1x128_S50000x128_0_1 (broadcastInDim S1x128 ![1] bcast_S128_S1x128_1 (V (Proc.devRef .tc main_arg3)))) := by
  simp only [hostOps1]
  after_results_simp
  rfl

/-- The outlined `relu`: the maximum with a broadcast zero. -/
theorem relu_stage (V : Valuation τ sig (Elt F)) :
    after hostOps1_1 V (Proc.devRef .tc main_v47)
      = maximumf (V (Proc.devRef .tc main_v46)) (broadcastInDim S50000x128 ![] bcast_S_S50000x128 (constant S_ .f32 0x00000000#32)) := by
  simp only [hostOps1_1]
  after_results
  simp only [TRef.ofBuf, TRef.toBuf, cast_eq]

set_option maxHeartbeats 1000000 in
/-- The second layer's aggregation over whatever the second call left in its result array. -/
theorem layer2_stage (V : Valuation τ sig (Elt F)) :
    after hostOps2 V (Proc.devRef .tc main_v64)
      = addf (Host.scatterAdd scatter_S50000x64_S675000x1_S675000x64_1_0_0_1 (broadcastInDim S50000x64 ![] bcast_S_S50000x64 (constant S_ .f32 0x00000000#32)) (broadcastInDim S675000x1 ![0] bcast_S675000_S675000x1_0 (V (Proc.devRef .tc main_v6))) (mulf (Host.gather gather_S50000x64_S675000x1_S675000x64_1_0_n_n_0_1_164 (V (Proc.devRef .tc main_v48)) (broadcastInDim S675000x1 ![0] bcast_S675000_S675000x1_0 (wrapped (F := F) (V (Proc.devRef .tc main_v5))))) (broadcastInDim S675000x64 ![0, 1] bcast_S675000x1_S675000x64_0_1 (broadcastInDim S675000x1 ![0] bcast_S675000_S675000x1_0 (V (Proc.devRef .tc main_v29)))))) (broadcastInDim S50000x64 ![0, 1] bcast_S1x64_S50000x64_0_1 (broadcastInDim S1x64 ![1] bcast_S64_S1x64_1 (V (Proc.devRef .tc main_arg5)))) := by
  simp only [hostOps2]
  after_results_simp
  rfl

/-! ## Before the second call (the boundary `W6`) -/

/-- The stretch between the calls leaves alone every buffer it does not write. -/
theorem between_keeps_sources (V : Valuation τ sig (Elt F)) :
    after hostOps1_1 (after hostOps1 V) (Proc.devRef .tc main_v5) = V (Proc.devRef .tc main_v5) := by
  simp only [hostOps1, hostOps1_1]
  after_results_simp
theorem between_keeps_targets (V : Valuation τ sig (Elt F)) :
    after hostOps1_1 (after hostOps1 V) (Proc.devRef .tc main_v6) = V (Proc.devRef .tc main_v6) := by
  simp only [hostOps1, hostOps1_1]
  after_results_simp
theorem between_keeps_norm (V : Valuation τ sig (Elt F)) :
    after hostOps1_1 (after hostOps1 V) (Proc.devRef .tc main_v29) = V (Proc.devRef .tc main_v29) := by
  simp only [hostOps1, hostOps1_1]
  after_results_simp
theorem between_keeps_weights2 (V : Valuation τ sig (Elt F)) :
    after hostOps1_1 (after hostOps1 V) (Proc.devRef .tc main_arg4) = V (Proc.devRef .tc main_arg4) := by
  simp only [hostOps1, hostOps1_1]
  after_results_simp
theorem between_keeps_bias2 (V : Valuation τ sig (Elt F)) :
    after hostOps1_1 (after hostOps1 V) (Proc.devRef .tc main_arg5) = V (Proc.devRef .tc main_arg5) := by
  simp only [hostOps1, hostOps1_1]
  after_results_simp

theorem W6_sources (c : Dev nD) :
    W6 m ρ c (Proc.devRef .tc main_v5) = sources (F := F) (m ((c : Thread nD τ).loc main_arg1)) :=
  (between_keeps_sources (W4 m ρ c)).trans (W4_sources m ρ c)
theorem W6_targets (c : Dev nD) :
    W6 m ρ c (Proc.devRef .tc main_v6) = targets (F := F) (m ((c : Thread nD τ).loc main_arg1)) :=
  (between_keeps_targets (W4 m ρ c)).trans (W4_targets m ρ c)
theorem W6_norm (c : Dev nD) :
    W6 m ρ c (Proc.devRef .tc main_v29) = edgeNorm (F := F) (m ((c : Thread nD τ).loc main_arg1)) :=
  (between_keeps_norm (W4 m ρ c)).trans (W4_norm m ρ c)
theorem W6_weights2 (c : Dev nD) :
    W6 m ρ c (Proc.devRef .tc main_arg4) = m ((c : Thread nD τ).loc main_arg4) :=
  (between_keeps_weights2 (W4 m ρ c)).trans (W4_weights2 m ρ c)
theorem W6_bias2 (c : Dev nD) :
    W6 m ρ c (Proc.devRef .tc main_arg5) = m ((c : Thread nD τ).loc main_arg5) :=
  (between_keeps_bias2 (W4 m ρ c)).trans (W4_bias2 m ρ c)

/-- The first layer's activation, over the first call's result array. -/
theorem W6_hidden (c : Dev nD) :
    W6 m ρ c (Proc.devRef .tc main_v47)
      = relu128 (F := F) (aggregate128 (F := F) (W4 m ρ c (Proc.devRef .tc main_v30)) (m ((c : Thread nD τ).loc main_arg1)) (m ((c : Thread nD τ).loc main_arg3))) := by
  show after hostOps1_1 (after hostOps1 (W4 m ρ c)) (Proc.devRef .tc main_v47) = _
  rw [relu_stage, layer1_stage, W4_sources, W4_targets, W4_norm, W4_bias1]
  rfl

/-! ## After the second call (the boundary `W7`) and at the return (`W8`) -/

theorem W7_sources (c : Dev nD) :
    W7 m ρ c (Proc.devRef .tc main_v5) = sources (F := F) (m ((c : Thread nD τ).loc main_arg1)) :=
  (W7_of_ne m ρ c main_v5 (by decide)).trans (W6_sources m ρ c)
theorem W7_targets (c : Dev nD) :
    W7 m ρ c (Proc.devRef .tc main_v6) = targets (F := F) (m ((c : Thread nD τ).loc main_arg1)) :=
  (W7_of_ne m ρ c main_v6 (by decide)).trans (W6_targets m ρ c)
theorem W7_norm (c : Dev nD) :
    W7 m ρ c (Proc.devRef .tc main_v29) = edgeNorm (F := F) (m ((c : Thread nD τ).loc main_arg1)) :=
  (W7_of_ne m ρ c main_v29 (by decide)).trans (W6_norm m ρ c)
theorem W7_bias2 (c : Dev nD) :
    W7 m ρ c (Proc.devRef .tc main_arg5) = m ((c : Thread nD τ).loc main_arg5) :=
  (W7_of_ne m ρ c main_arg5 (by decide)).trans (W6_bias2 m ρ c)

/-- The program's result: the second layer's aggregation over the second call's result array. -/
theorem W8_result (c : Dev nD) :
    W8 m ρ c (Proc.devRef .tc main_v64)
      = aggregate64 (F := F) (W7 m ρ c (Proc.devRef .tc main_v48)) (m ((c : Thread nD τ).loc main_arg1)) (m ((c : Thread nD τ).loc main_arg5)) := by
  show after hostOps2 (W7 m ρ c) (Proc.devRef .tc main_v64) = _
  rw [layer2_stage, W7_sources, W7_targets, W7_norm, W7_bias2]
  rfl

end Cert.KernelIdeal.Boundaries

end
-- ==== Proof.BlockProduct.lean ====
/-
  The two kernel bodies at the extended reals. Each body loads a 5000-row block of the left matrix and the whole right
  matrix, narrows both to bf16 (the identity on extended reals), multiplies them into a zero accumulator and stores the
  product over the whole output block. Read entry by entry, the stored block at row `r`, column `c` is the sum over the 128
  contracted positions `k` of (left block at `(r, k)`) times (right matrix at `(k, c)`): the zero accumulator adds nothing.
-/
import proofs.«106965_j40750649704955_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## First layer: a [5000, 128] block times the [128, 128] weights -/

/-- The left operand's row is the output's row. -/
theorem l1_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted position. -/
theorem l1_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row is the contracted position. -/
theorem r1_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column is the output's column. -/
theorem r1_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, k)` of the left block, for the output entry `j = (r, c)`. -/
abbrev left1 (j : S5000x128.Idx) (k : Fin 128) : S5000x128.Idx := fun a => match a with
  | ⟨0, _⟩ => ⟨(j 0).val, (j 0).isLt⟩
  | ⟨1, _⟩ => ⟨k.val, k.isLt⟩
/-- Entry `(k, c)` of the weights, for the output entry `j = (r, c)`. -/
abbrev right1 (j : S5000x128.Idx) (k : Fin 128) : S128x128.Idx := fun a => match a with
  | ⟨0, _⟩ => ⟨k.val, k.isLt⟩
  | ⟨1, _⟩ => ⟨(j 1).val, (j 1).isLt⟩

/-- The first body's stored block, entry by entry: the row-by-column sum over the 128 contracted positions. -/
theorem block1_apply (x : Vec Ideal S5000x128 .f32) (w : Vec Ideal S128x128 .f32) (j : S5000x128.Idx) :
    k0_pay1 (F := Ideal) x w j = ∑ k : Fin 128, x (left1 j k) * w (right1 j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = left1 j k := funext fun a => Fin.ext (by
    match a with
    | ⟨0, _⟩ => exact l1_row _ _
    | ⟨1, _⟩ => exact (l1_col _ _).trans hk)
  have er : dot_S5000x128_S128x128_S5000x128_1_0_0_1_n_n.rhsIdx j ((ValueIdx.contrEquiv1 dot_S5000x128_S128x128_S5000x128_1_0_0_1_n_n 128 rfl rfl).symm k) = right1 j k := funext fun a => Fin.ext (by
    match a with
    | ⟨0, _⟩ => exact (r1_row _ _).trans hk
    | ⟨1, _⟩ => exact r1_col _ _)
  rw [ValueIdx.truncf_apply, ValueIdx.truncf_apply, el, er]

/-! ## Second layer: a [5000, 128] block times the [128, 64] weights -/

/-- The left operand's row is the output's row. -/
theorem l2_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted position. -/
theorem l2_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right operand's row is the contracted position. -/
theorem r2_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- The right operand's column is the output's column. -/
theorem r2_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(r, k)` of the left block, for the output entry `j = (r, c)`. -/
abbrev left2 (j : S5000x64.Idx) (k : Fin 128) : S5000x128.Idx := fun a => match a with
  | ⟨0, _⟩ => ⟨(j 0).val, (j 0).isLt⟩
  | ⟨1, _⟩ => ⟨k.val, k.isLt⟩
/-- Entry `(k, c)` of the weights, for the output entry `j = (r, c)`. -/
abbrev right2 (j : S5000x64.Idx) (k : Fin 128) : S128x64.Idx := fun a => match a with
  | ⟨0, _⟩ => ⟨k.val, k.isLt⟩
  | ⟨1, _⟩ => ⟨(j 1).val, (j 1).isLt⟩

/-- The second body's stored block, entry by entry: the row-by-column sum over the 128 contracted positions (the
    shape cast in front of the narrowing keeps the shape, so it is the identity). -/
theorem block2_apply (x : Vec Ideal S5000x128 .f32) (w : Vec Ideal S128x64 .f32) (j : S5000x64.Idx) :
    k1_pay1 (F := Ideal) x w j = ∑ k : Fin 128, x (left2 j k) * w (right2 j k) := by
  unfold k1_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = left2 j k := funext fun a => Fin.ext (by
    match a with
    | ⟨0, _⟩ => exact l2_row _ _
    | ⟨1, _⟩ => exact (l2_col _ _).trans hk)
  have er : dot_S5000x128_S128x64_S5000x64_1_0_0_1_n_n.rhsIdx j ((ValueIdx.contrEquiv1 dot_S5000x128_S128x64_S5000x64_1_0_0_1_n_n 128 rfl rfl).symm k) = right2 j k := funext fun a => Fin.ext (by
    match a with
    | ⟨0, _⟩ => exact (r2_row _ _).trans hk
    | ⟨1, _⟩ => exact r2_col _ _)
  rw [ValueIdx.truncf_apply, ValueIdx.truncf_apply, shapeCast_self, el, er]

end Cert.KernelIdeal.BlockProduct

end
-- ==== Proof.RegionProduct1.lean ====
/-
  The first pallas_call, read as one array. Its grid has ten points; point `t` fetches rows `5000·t … 5000·t + 4999` of
  the left matrix (all 128 columns), the whole 128 × 128 weight matrix, and writes back rows `5000·t … 5000·t + 4999` of
  the result. What the body stores is the block's matrix product, so what point `t` writes back is block `t` of ONE
  function of the two arrays as the region finds them: entry `(r, c)` is the sum over `k` of `X (r, k) · W (k, c)`.
  The ten blocks tile the 50000 rows, so the result array ends holding that function everywhere.
-/
import proofs.«106965_j40750649704955_1_alg».proof.Proof.Gen.KernelIdeal.Frame
import proofs.«106965_j40750649704955_1_alg».proof.Proof.BlockProduct

set_option maxRecDepth 16384

noncomputable section

namespace Cert.KernelIdeal.RegionProduct

open Cert.KernelIdeal Cert.KernelIdeal.Gen Cert.KernelIdeal.BlockProduct
open Idealize.ShloMosaic Idealize.ShloMosaic.TcCoe Idealize.SL.Sem
open Idealize.ShloMosaic.Pipeline (Dat Cfg Window)

-- the region-entry contents of the TensorCore's buffers, at the extended reals
variable (V : (c : Dev nD) → (b : Ref sig .tc) → Buf (Elt Ideal) ((c : Thread nD τ).loc b))

theorem offsets_zero : (![0, 0] : Fin 2 → Nat) = fun _ => 0 := funext fun a => by fin_cases a <;> rfl

/-! ## The whole-array product of the first layer -/

/-- Entry `(r, k)` of the left matrix, for the output entry `i = (r, c)`. -/
abbrev rowOf1 (i : S50000x128.Idx) (k : Fin 128) : S50000x128.Idx := fun a => match a with
  | ⟨0, _⟩ => ⟨(i 0).val, (i 0).isLt⟩
  | ⟨1, _⟩ => ⟨k.val, k.isLt⟩
/-- Entry `(k, c)` of the weights, for the output entry `i = (r, c)`. -/
abbrev colOf1 (i : S50000x128.Idx) (k : Fin 128) : S128x128.Idx := fun a => match a with
  | ⟨0, _⟩ => ⟨k.val, k.isLt⟩
  | ⟨1, _⟩ => ⟨(i 1).val, (i 1).isLt⟩

/-- `X · W` over the extended reals: entry `(r, c)` is the sum over the 128 positions `k` of `X (r, k) · W (k, c)`. -/
def product1 (X : S50000x128.Idx → EReal) (W : S128x128.Idx → EReal) : S50000x128.Idx → EReal :=
  fun i => ∑ k : Fin 128, X (rowOf1 i k) * W (colOf1 i k)

/-! ## The index maps, decided once over the ten grid points -/

/-- The left window and the output window move together down the rows and the output's row block is the point's
    number; the left window has one column block; the weight window never moves. -/
theorem index_facts1 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem index_onto1 : ∀ q : Fin 10, ∃ t : Fin cfg0.N, win0_2.index t = ![q.val, 0] :=
  (by decide +kernel : ∀ q : Fin 10, ∃ t : Fin grid0.N, win0_2.index t = ![q.val, 0])

/-! ## What a point writes back -/

/-- Point `t` writes back block `t` of the product of the two arrays as the region finds them. -/
theorem flushed1 (c : Dev nD) (t : Fin cfg0.N) :
    (dat0 (F := Ideal) V c).flushed 2 t
      = ((cfg0.win 2).blk t).view.read (Elt Ideal) (product1 (V c main_arg0) (V c main_arg2)) := by
  show (cfg0.win 2).cut (grid0.coords t) ((dat0 (F := Ideal) V c).after 2 t) = _
  rw [after0_2]
  unfold out0_2
  rw [View.canon_unit_zero offsets_zero]
  simp only [View.ld_unit_zero (S := S5000x128) offsets_zero, View.ld_unit_zero (S := S128x128) offsets_zero]
  obtain ⟨e0, e1, e2, e3, e4, e5⟩ := index_facts1 t
  funext j
  show k0_pay1 (F := Ideal) (iblk0 V c 0 t) (iblk0 V c 1 t) j = product1 (V c main_arg0) (V c main_arg2) (((cfg0.win 2).blk t).view.emb j)
  refine (block1_apply (iblk0 V c 0 t) (iblk0 V c 1 t) j).trans ?_
  unfold product1
  refine Finset.sum_congr rfl fun k _ => ?_
  have hx : iblk0 V c 0 t (left1 j k) = V c main_arg0 (rowOf1 (((cfg0.win 2).blk t).view.emb j) k) := by
    show V c main_arg0 (((cfg0.win 0).blk t).view.emb (left1 j k)) = V c main_arg0 (rowOf1 (((cfg0.win 2).blk t).view.emb j) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (right1 j k) = V c main_arg2 (colOf1 (((cfg0.win 2).blk t).view.emb j) k) := by
    show V c main_arg2 (((cfg0.win 1).blk t).view.emb (right1 j k)) = V c main_arg2 (colOf1 (((cfg0.win 2).blk t).view.emb j) k)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-! ## The ten blocks tile the rows -/

/-- An index of the result array is in point `t`'s block iff each coordinate is in the block's range on its axis. -/
theorem mem_block1 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the block of the point whose row block is `r / 5000`. -/
theorem cover1 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto1 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block1]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The result array after the region -/

/-- After the ten points the result array holds the product of the two arrays as the region finds them. -/
theorem array1 (c : Dev nD) :
    (dat0 (F := Ideal) V c).arrAt 2 cfg0.N = product1 (V c main_arg0) (V c main_arg2) :=
  (dat0 (F := Ideal) V c).arrAt_eq_of_cover 2 (product1 (V c main_arg0) (V c main_arg2)) (fun t _ => flushed1 V c t) cover1

end Cert.KernelIdeal.RegionProduct

end
-- ==== Proof.RegionProduct2.lean ====
/-
  The second pallas_call, read as one array. Its grid has ten points; point `t` fetches rows `5000·t … 5000·t + 4999` of
  the left matrix (all 128 columns), the whole 128 × 64 weight matrix, and writes back rows `5000·t … 5000·t + 4999` of
  the result (64 columns). What the body stores is the block's matrix product, so what point `t` writes back is block
  `t` of ONE function of the two arrays as the region finds them: entry `(r, c)` is the sum over `k` of
  `X (r, k) · W (k, c)`. The ten blocks tile the 50000 rows, so the result array ends holding that function everywhere.
-/
import proofs.«106965_j40750649704955_1_alg».proof.Proof.Gen.KernelIdeal.Frame
import proofs.«106965_j40750649704955_1_alg».proof.Proof.BlockProduct

set_option maxRecDepth 16384

noncomputable section

namespace Cert.KernelIdeal.RegionProduct

open Cert.KernelIdeal Cert.KernelIdeal.Gen Cert.KernelIdeal.BlockProduct
open Idealize.ShloMosaic Idealize.ShloMosaic.TcCoe Idealize.SL.Sem
open Idealize.ShloMosaic.Pipeline (Dat Cfg Window)

-- the region-entry contents of the TensorCore's buffers, at the extended reals
variable (V : (c : Dev nD) → (b : Ref sig .tc) → Buf (Elt Ideal) ((c : Thread nD τ).loc b))

theorem offsets_zero' : (![0, 0] : Fin 2 → Nat) = fun _ => 0 := funext fun a => by fin_cases a <;> rfl

/-! ## The whole-array product of the second layer -/

/-- Entry `(r, k)` of the left matrix, for the output entry `i = (r, c)`. -/
abbrev rowOf2 (i : S50000x64.Idx) (k : Fin 128) : S50000x128.Idx := fun a => match a with
  | ⟨0, _⟩ => ⟨(i 0).val, (i 0).isLt⟩
  | ⟨1, _⟩ => ⟨k.val, k.isLt⟩
/-- Entry `(k, c)` of the weights, for the output entry `i = (r, c)`. -/
abbrev colOf2 (i : S50000x64.Idx) (k : Fin 128) : S128x64.Idx := fun a => match a with
  | ⟨0, _⟩ => ⟨k.val, k.isLt⟩
  | ⟨1, _⟩ => ⟨(i 1).val, (i 1).isLt⟩

/-- `X · W` over the extended reals: entry `(r, c)` is the sum over the 128 positions `k` of `X (r, k) · W (k, c)`. -/
def product2 (X : S50000x128.Idx → EReal) (W : S128x64.Idx → EReal) : S50000x64.Idx → EReal :=
  fun i => ∑ k : Fin 128, X (rowOf2 i k) * W (colOf2 i k)

/-! ## The index maps, decided once over the ten grid points -/

/-- The left window and the output window move together down the rows and the output's row block is the point's
    number; the left window has one column block; the weight window never moves. -/
theorem index_facts2 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem index_onto2 : ∀ q : Fin 10, ∃ t : Fin cfg1.N, win1_2.index t = ![q.val, 0] :=
  (by decide +kernel : ∀ q : Fin 10, ∃ t : Fin grid1.N, win1_2.index t = ![q.val, 0])

/-! ## What a point writes back -/

/-- Point `t` writes back block `t` of the product of the two arrays as the region finds them. -/
theorem flushed2 (c : Dev nD) (t : Fin cfg1.N) :
    (dat1 (F := Ideal) V c).flushed 2 t
      = ((cfg1.win 2).blk t).view.read (Elt Ideal) (product2 (V c main_v47) (V c main_arg4)) := by
  show (cfg1.win 2).cut (grid1.coords t) ((dat1 (F := Ideal) V c).after 2 t) = _
  rw [after1_2]
  unfold out1_2
  rw [View.canon_unit_zero offsets_zero']
  simp only [View.ld_unit_zero (S := S5000x128) offsets_zero', View.ld_unit_zero (S := S128x64) offsets_zero']
  obtain ⟨e0, e1, e2, e3, e4, e5⟩ := index_facts2 t
  funext j
  show k1_pay1 (F := Ideal) (iblk1 V c 0 t) (iblk1 V c 1 t) j = product2 (V c main_v47) (V c main_arg4) (((cfg1.win 2).blk t).view.emb j)
  refine (block2_apply (iblk1 V c 0 t) (iblk1 V c 1 t) j).trans ?_
  unfold product2
  refine Finset.sum_congr rfl fun k _ => ?_
  have hx : iblk1 V c 0 t (left2 j k) = V c main_v47 (rowOf2 (((cfg1.win 2).blk t).view.emb j) k) := by
    show V c main_v47 (((cfg1.win 0).blk t).view.emb (left2 j k)) = V c main_v47 (rowOf2 (((cfg1.win 2).blk t).view.emb j) k)
    refine congrArg (V c main_v47) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (right2 j k) = V c main_arg4 (colOf2 (((cfg1.win 2).blk t).view.emb j) k) := by
    show V c main_arg4 (((cfg1.win 1).blk t).view.emb (right2 j k)) = V c main_arg4 (colOf2 (((cfg1.win 2).blk t).view.emb j) k)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hx, hw]

/-! ## The ten blocks tile the rows -/

/-- An index of the result array is in point `t`'s block iff each coordinate is in the block's range on its axis. -/
theorem mem_block2 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` lies in the block of the point whose row block is `r / 5000`. -/
theorem cover2 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := index_onto2 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-! ## The result array after the region -/

/-- After the ten points the result array holds the product of the two arrays as the region finds them. -/
theorem array2 (c : Dev nD) :
    (dat1 (F := Ideal) V c).arrAt 2 cfg1.N = product2 (V c main_v47) (V c main_arg4) :=
  (dat1 (F := Ideal) V c).arrAt_eq_of_cover 2 (product2 (V c main_v47) (V c main_arg4)) (fun t _ => flushed2 V c t) cover2

end Cert.KernelIdeal.RegionProduct

end
-- ==== Proof.KernelValue.lean ====
/-
  The kernel program's result at the extended reals, as one function of the argument arrays: the second layer's
  aggregation of `relu (first aggregation of X·W₁) · W₂`, where each dense product is what the ten blocks of its
  pallas_call assemble. The arguments reach the first call unchanged; the first layer's activation and the second
  weights reach the second call as the host left them.
-/
import proofs.«106965_j40750649704955_1_alg».proof.Proof.Boundaries
import proofs.«106965_j40750649704955_1_alg».proof.Proof.RegionProduct1
import proofs.«106965_j40750649704955_1_alg».proof.Proof.RegionProduct2

set_option maxRecDepth 16384

noncomputable section

namespace Cert.KernelIdeal.KernelValue

open Cert.KernelIdeal Cert.KernelIdeal.Gen Cert.KernelIdeal.HostStages Cert.KernelIdeal.Boundaries Cert.KernelIdeal.RegionProduct
open Idealize.ShloMosaic Idealize.ShloMosaic.TcCoe Idealize.SL.Sem

variable (m : (ℓ : Loc nD τ sig) → Buf (Elt Ideal) ℓ) (ρ : Dev nD → PrngReg)

/-- The first call's result array is `X · W₁` of the launch contents. -/
theorem first_product (c : Dev nD) :
    W4 m ρ c (Proc.devRef .tc main_v30)
      = product1 (m ((c : Thread nD τ).loc main_arg0)) (m ((c : Thread nD τ).loc main_arg2)) := by
  refine (W4_arr m ρ c 2).trans ?_
  refine (array1 (V3 m ρ) c).trans ?_
  rw [show V3 m ρ c main_arg0 = m ((c : Thread nD τ).loc main_arg0) from W3_features m ρ c,
    show V3 m ρ c main_arg2 = m ((c : Thread nD τ).loc main_arg2) from W3_weights1 m ρ c]

/-- The second call's result array is (what the host left as the first layer's activation) `· W₂`. -/
theorem second_product (c : Dev nD) :
    W7 m ρ c (Proc.devRef .tc main_v48)
      = product2 (W6 m ρ c (Proc.devRef .tc main_v47)) (m ((c : Thread nD τ).loc main_arg4)) := by
  refine (W7_arr m ρ c 2).trans ?_
  refine (array2 (V6 m ρ) c).trans ?_
  rw [show V6 m ρ c main_arg4 = m ((c : Thread nD τ).loc main_arg4) from W6_weights2 m ρ c]

/-- The program's result as one function of the argument arrays. -/
theorem value (c : Dev nD) :
    W8 m ρ c (Proc.devRef .tc main_v64)
      = aggregate64 (F := Ideal)
          (product2
            (relu128 (F := Ideal)
              (aggregate128 (F := Ideal)
                (product1 (m ((c : Thread nD τ).loc main_arg0)) (m ((c : Thread nD τ).loc main_arg2)))
                (m ((c : Thread nD τ).loc main_arg1)) (m ((c : Thread nD τ).loc main_arg3))))
            (m ((c : Thread nD τ).loc main_arg4)))
          (m ((c : Thread nD τ).loc main_arg1)) (m ((c : Thread nD τ).loc main_arg5)) := by
  rw [W8_result, second_product, W6_hidden, first_product]

end Cert.KernelIdeal.KernelValue

end
-- ==== Proof.RefValue.lean ====
/-
  The reference's result as the same stages. Its composed term is the second layer's aggregation of the dense product
  of (the first layer's activation) with the second weights, where the first layer's activation is the maximum with
  zero of the first aggregation of the dense product of the features with the first weights. The reference computes the
  edge normalisation a second time for the second layer, from the same edge list and by the same operations: the two
  computations are one term, so both layers use the same `edgeNorm`.
-/
import proofs.«106965_j40750649704955_1_alg».proof.Proof.RefRun
import proofs.«106965_j40750649704955_1_alg».proof.Proof.HostStages

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable {F : FTy → Type} [FloatOps F]

set_option maxRecDepth 8192 in
/-- The reference's result is the second aggregation of `relu (first aggregation of X·W₁) · W₂`, every stage a function
    of the arguments' launch contents. -/
theorem result_eq (m : (ℓ : Loc nD τ sig) → Buf (Elt F) ℓ) (c : Dev nD) :
    res_main_v90 (F := F) m c
      = Cert.KernelIdeal.HostStages.aggregate64 (F := F)
          (Host.dotGeneral dot_S50000x128_S128x64_S50000x64_1_0_0_1_n_n none
            (Cert.KernelIdeal.HostStages.relu128 (F := F)
              (Cert.KernelIdeal.HostStages.aggregate128 (F := F)
                (Host.dotGeneral dot_S50000x128_S128x128_S50000x128_1_0_0_1_n_n none
                  (m ((c.tc : Thread nD τ).loc main_arg0)) (m ((c.tc : Thread nD τ).loc main_arg2)))
                (m ((c.tc : Thread nD τ).loc main_arg1)) (m ((c.tc : Thread nD τ).loc main_arg3))))
            (m ((c.tc : Thread nD τ).loc main_arg4)))
          (m ((c.tc : Thread nD τ).loc main_arg1)) (m ((c.tc : Thread nD τ).loc main_arg5)) := by
  unfold res_main_v90 Cert.KernelIdeal.HostStages.aggregate64 Cert.KernelIdeal.HostStages.relu128
    Cert.KernelIdeal.HostStages.aggregate128 Cert.KernelIdeal.HostStages.edgeNorm Cert.KernelIdeal.HostStages.invSqrtDeg
    Cert.KernelIdeal.HostStages.degree Cert.KernelIdeal.HostStages.wrapped Cert.KernelIdeal.HostStages.sources
    Cert.KernelIdeal.HostStages.targets
  rfl

end Cert.ReferenceIdeal.RefValue

end
-- ==== Proof.RefProduct.lean ====
/-
  The reference's two dense products at the extended reals. The host's `dot_general` with one contracted axis is, entry
  by entry, the sum over the 128 contracted positions `k` of (left at `(r, k)`) times (right at `(k, c)`): the same
  function the kernel's ten blocks assemble (`product1`, `product2`).
-/
import proofs.«106965_j40750649704955_1_alg».proof.ReferenceIdeal
import proofs.«106965_j40750649704955_1_alg».proof.Proof.Gen.ReferenceIdeal
import proofs.«106965_j40750649704955_1_alg».proof.Proof.RegionProduct1
import proofs.«106965_j40750649704955_1_alg».proof.Proof.RegionProduct2
import Idealize.ShloMosaic.Lib.ValueIdx
import Idealize.ShloMosaic.PureOps.Ideal.Laws

noncomputable section

namespace Cert.ReferenceIdeal.RefProduct

open Cert.ReferenceIdeal Cert.ReferenceIdeal.Gen Idealize.ShloMosaic Idealize.ShloMosaic.TcCoe Idealize.SL.Sem
open Cert.KernelIdeal.RegionProduct (product1 product2 rowOf1 colOf1 rowOf2 colOf2)

/-! ## First layer: [50000, 128] times [128, 128] -/

theorem d1_left_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem d1_left_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem d1_right_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem d1_right_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's first dense product is the whole-array sum. -/
theorem dot1_eq (X : FVec Ideal S50000x128 .f32) (W : FVec Ideal S128x128 .f32) :
    Host.dotGeneral dot_S50000x128_S128x128_S50000x128_1_0_0_1_n_n none X W = product1 X W := by
  funext i
  unfold product1
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowOf1 i k := funext fun a => Fin.ext (by
    match a with
    | ⟨0, _⟩ => exact d1_left_row _ _
    | ⟨1, _⟩ => exact (d1_left_col _ _).trans hk)
  have er : dot_S50000x128_S128x128_S50000x128_1_0_0_1_n_n.rhsIdx i ((ValueIdx.contrEquiv1 dot_S50000x128_S128x128_S50000x128_1_0_0_1_n_n 128 rfl rfl).symm k) = colOf1 i k := funext fun a => Fin.ext (by
    match a with
    | ⟨0, _⟩ => exact (d1_right_row _ _).trans hk
    | ⟨1, _⟩ => exact d1_right_col _ _)
  rw [el, er]

/-! ## Second layer: [50000, 128] times [128, 64] -/

theorem d2_left_row (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem d2_left_col (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem d2_right_row (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem d2_right_col (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's second dense product is the whole-array sum. -/
theorem dot2_eq (X : FVec Ideal S50000x128 .f32) (W : FVec Ideal S128x64 .f32) :
    Host.dotGeneral dot_S50000x128_S128x64_S50000x64_1_0_0_1_n_n none X W = product2 X W := by
  funext i
  unfold product2
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = rowOf2 i k := funext fun a => Fin.ext (by
    match a with
    | ⟨0, _⟩ => exact d2_left_row _ _
    | ⟨1, _⟩ => exact (d2_left_col _ _).trans hk)
  have er : dot_S50000x128_S128x64_S50000x64_1_0_0_1_n_n.rhsIdx i ((ValueIdx.contrEquiv1 dot_S50000x128_S128x64_S50000x64_1_0_0_1_n_n 128 rfl rfl).symm k) = colOf2 i k := funext fun a => Fin.ext (by
    match a with
    | ⟨0, _⟩ => exact (d2_right_row _ _).trans hk
    | ⟨1, _⟩ => exact d2_right_col _ _)
  rw [el, er]

end Cert.ReferenceIdeal.RefProduct

end
-- ==== Proof.lean ====
/-
  The certificate of a two-layer graph convolution. The kernel program computes each layer's dense product
  `H · W` by a pallas_call tiled over ten blocks of 5000 rows (operands narrowed to bf16, accumulated in f32) and does
  the rest on the host: degrees by a scatter-add of ones, the symmetric normalisation `d^(-1/2)` at both ends of every
  edge, a gather at the sources, the scaling, a scatter-add into the targets, the bias, and a maximum with zero after
  the first layer. The reference does the dense products by `dot_general` and the same host operations, computing the
  normalisation once per layer.
  Over the extended reals narrowing is the identity and a block product into a zero accumulator is the plain sum over the
  128 contracted positions, so each pallas_call leaves the whole-array product `∑ₖ H (r, k) · W (k, c)`: the function the
  host's `dot_general` computes. Everything else is the same operations applied to the same values in the same order, and
  the reference's second normalisation is the first one again. No law of arithmetic beyond that sum is used, so the
  finiteness of the inputs is never opened.
  The three frames: the two kernel programs by their frame certificates; the reference by its run with the result dropped.
  The idealisation rewrote nothing, so `preserves` is trivial.
-/
import proofs.«106965_j40750649704955_1_alg».proof.Defs
import proofs.«106965_j40750649704955_1_alg».proof.Proof.Gen.Kernel
import proofs.«106965_j40750649704955_1_alg».proof.Proof.Gen.Kernel.Skeleton
import proofs.«106965_j40750649704955_1_alg».proof.Proof.Gen.Kernel.Launch
import proofs.«106965_j40750649704955_1_alg».proof.Proof.Gen.Kernel.Points
import proofs.«106965_j40750649704955_1_alg».proof.Proof.Gen.Kernel.Frame
import proofs.«106965_j40750649704955_1_alg».proof.Proof.Gen.KernelIdeal
import proofs.«106965_j40750649704955_1_alg».proof.Proof.Gen.KernelIdeal.Skeleton
import proofs.«106965_j40750649704955_1_alg».proof.Proof.Gen.KernelIdeal.Launch
import proofs.«106965_j40750649704955_1_alg».proof.Proof.Gen.KernelIdeal.Points
import proofs.«106965_j40750649704955_1_alg».proof.Proof.Gen.KernelIdeal.Frame
import proofs.«106965_j40750649704955_1_alg».proof.Proof.Gen.ReferenceIdeal
import proofs.«106965_j40750649704955_1_alg».proof.Proof.Gen.Pre_finite_inputs
import proofs.«106965_j40750649704955_1_alg».proof.Proof.KernelRun
import proofs.«106965_j40750649704955_1_alg».proof.Proof.KernelValue
import proofs.«106965_j40750649704955_1_alg».proof.Proof.RefRun
import proofs.«106965_j40750649704955_1_alg».proof.Proof.RefValue
import proofs.«106965_j40750649704955_1_alg».proof.Proof.RefProduct
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the same array: the kernel's run read through its boundaries and its two region products,
    the reference's composed term with each `dot_general` read as the same whole-array sum, the arguments agreeing. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.KernelValue.value m ρ c), (h c).2⟩)
    (Cert.KernelIdeal.GenP.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, Cert.ReferenceIdeal.RefProduct.dot1_eq, Cert.ReferenceIdeal.RefProduct.dot2_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
